-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.named_const.Statement Cert.KernelIdeal.κ "inv_40" .f32 0x3CCCCCCD#32 ((1 / 40 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x40 : Shape := ⟨2, ![1000000, 40]⟩
abbrev S40x1000000 : Shape := ⟨2, ![40, 1000000]⟩
abbrev S40 : Shape := ⟨1, ![40]⟩
abbrev S_ : Shape := ⟨0, ![]⟩

class Facts : Prop where
  bcast_S_S1000000x40 : S_.BroadcastsInDim S1000000x40 (![] : Fin 0 → Fin S1000000x40.rank)
  reducesTo_S1000000x40_S_d0_1 : S1000000x40.ReducesTo [0, 1] S_
  h_S_ : 0 < S_.numel
  bcast_S_S40 : S_.BroadcastsInDim S40 (![] : Fin 0 → Fin S40.rank)
  reducesTo_S40_S_d0 : S40.ReducesTo [0] S_

variable [Facts]

def fn {F : FTy → Type} [FloatOps F] (main_arg0 : FVec F S1000000x40 .f32) (main_arg1 : IVec S40x1000000 32) (main_arg2 : FVec F S40 .f32) : IVec S_ 1 :=
  let main_v0 : FVec F S1000000x40 .f32 := Host.absf main_arg0
  let main_cst : FVec F S_ .f32 := constant S_ .f32 0x7F800000#32
  let main_v1 : FVec F S1000000x40 .f32 := broadcastInDim S1000000x40 ![] bcast_S_S1000000x40 main_cst
  let main_v2 : IVec S1000000x40 1 := cmpf .olt main_v0 main_v1
  let main_c : IVec S_ 1 := constantI S_ 1 1#1
  let main_v3 : IVec S_ 1 := (fun x v => Host.reduce IntOp.andi x v reducesTo_S1000000x40_S_d0_1 h_S_) main_v2 main_c
  let main_v4 : FVec F S40 .f32 := Host.absf main_arg2
  let main_cst_0 : FVec F S_ .f32 := constant S_ .f32 0x7F800000#32
  let main_v5 : FVec F S40 .f32 := broadcastInDim S40 ![] bcast_S_S40 main_cst_0
  let main_v6 : IVec S40 1 := cmpf .olt main_v4 main_v5
  let main_c_1 : IVec S_ 1 := constantI S_ 1 1#1
  let main_v7 : IVec S_ 1 := (fun x v => Host.reduce IntOp.andi x v reducesTo_S40_S_d0 h_S_) main_v6 main_c_1
  let main_v8 : IVec S_ 1 := andi main_v3 main_v7
  main_v8
-- ==== Kernel.lean ====
abbrev S1000000x40 : Shape := ⟨2, ![1000000, 40]⟩
abbrev S40x1000000 : Shape := ⟨2, ![40, 1000000]⟩
abbrev S40 : Shape := ⟨1, ![40]⟩
abbrev S_ : Shape := ⟨0, ![]⟩
abbrev S1007616x40 : Shape := ⟨2, ![1007616, 40]⟩
abbrev S40x1007616 : Shape := ⟨2, ![40, 1007616]⟩
abbrev S1x1 : Shape := ⟨2, ![1, 1]⟩
abbrev S12288x40 : Shape := ⟨2, ![12288, 40]⟩
abbrev S40x12288 : Shape := ⟨2, ![40, 12288]⟩
abbrev S1x40 : Shape := ⟨2, ![1, 40]⟩
abbrev S12288 : Shape := ⟨1, ![12288]⟩
abbrev S1x12288 : Shape := ⟨2, ![1, 12288]⟩
abbrev S1 : Shape := ⟨1, ![1]⟩

abbrev nBuf : Space → Nat
  | .hbm => 11
  | .vmem => 6
  | .smem => 0
  | _ => 0

abbrev bufTy : (tb : Table) → Fin (tcTables nBuf tb) → BufTy
  | .hbm, ⟨0, _⟩ => ⟨S1000000x40, .f32⟩
  | .hbm, ⟨1, _⟩ => ⟨S40x1000000, .i32⟩
  | .hbm, ⟨2, _⟩ => ⟨S40, .f32⟩
  | .hbm, ⟨3, _⟩ => ⟨S_, .f32⟩
  | .hbm, ⟨4, _⟩ => ⟨S_, .f32⟩
  | .hbm, ⟨5, _⟩ => ⟨S1007616x40, .f32⟩
  | .hbm, ⟨6, _⟩ => ⟨S_, .i32⟩
  | .hbm, ⟨7, _⟩ => ⟨S_, .i32⟩
  | .hbm, ⟨8, _⟩ => ⟨S40x1007616, .i32⟩
  | .hbm, ⟨9, _⟩ => ⟨S1x1, .f32⟩
  | .hbm, ⟨10, _⟩ => ⟨S_, .f32⟩
  | .local _ .vmem, ⟨0, _⟩ => ⟨S12288x40, .f32⟩
  | .local _ .vmem, ⟨1, _⟩ => ⟨S12288x40, .f32⟩
  | .local _ .vmem, ⟨2, _⟩ => ⟨S40x12288, .i32⟩
  | .local _ .vmem, ⟨3, _⟩ => ⟨S40x12288, .i32⟩
  | .local _ .vmem, ⟨4, _⟩ => ⟨S40, .f32⟩
  | .local _ .vmem, ⟨5, _⟩ => ⟨S1x1, .f32⟩
  | _, _ => ⟨S1000000x40, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_v0 : Ref sig .tc := ⟨.hbm, 5, rfl⟩
abbrev main_c : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![82], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S12288x40 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S40x12288 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  pads_S1000000x40_S1007616x40_076160_000 : S1000000x40.Pads (![0, 0] : Fin 2 → Nat) ![7616, 0] ![0, 0] S1007616x40
  h_S_ : 0 < S_.numel
  pads_S40x1000000_S40x1007616_000_076160 : S40x1000000.Pads (![0, 0] : Fin 2 → Nat) ![0, 7616] ![0, 0] S40x1007616
  inb_S1x1_S1x1_0_0 : ∀ a, (![0, 0] : Fin 2 → Nat) a + S1x1.size a ≤ S1x1.size a
  h_S1x1 : 0 < S1x1.numel
  inb_S12288x40_S12288x40_0_0 : ∀ a, (![0, 0] : Fin 2 → Nat) a + S12288x40.size a ≤ S12288x40.size a
  h_S12288x40 : 0 < S12288x40.numel
  shapeCasts_S12288x40_S12288x40 : S12288x40.ShapeCasts S12288x40
  inb_S40x12288_S40x12288_0_0 : ∀ a, (![0, 0] : Fin 2 → Nat) a + S40x12288.size a ≤ S40x12288.size a
  h_S40x12288 : 0 < S40x12288.numel
  shapeCasts_S40x12288_S40x12288 : S40x12288.ShapeCasts S40x12288
  transposes_S40x12288_p1_0_S12288x40 : S40x12288.Transposes [1, 0] S12288x40
  inb_S40_S40_0 : ∀ a, (![0] : Fin 1 → Nat) a + S40.size a ≤ S40.size a
  h_S40 : 0 < S40.numel
  shapeCasts_S40_S1x40 : S40.ShapeCasts S1x40
  broadcasts_S1x40_S12288x40 : S1x40.Broadcasts S12288x40
  iota_S12288x40_d0_w32 : S12288x40.Iotas .tc 32 [0]
  reduces_S12288x40_S12288 : S12288x40.Reduces [1] S12288
  shapeCasts_S12288_S1x12288 : S12288.ShapeCasts S1x12288
  reduces_S1x12288_S1 : S1x12288.Reduces [1] S1
  shapeCasts_S1_S1x1 : S1.ShapeCasts S1x1
  inpos_S1x1_p0_0 : ∀ a, (![0, 0] : Fin 2 → Nat) a < S1x1.size a
  shapeCasts_S1x1_S1x1 : S1x1.ShapeCasts S1x1
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12288x40.size a ≤ S1007616x40.size a
  hwx0_0 : ∀ i : grid0.Coords, EltTy.bits .f32 = 32 ∨ (Rect.block (s := S1007616x40) S12288x40.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S40x12288.size a ≤ S40x1007616.size a
  hwx0_1 : ∀ i : grid0.Coords, EltTy.bits .i32 = 32 ∨ (Rect.block (s := S40x1007616) S40x12288.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40.size a ≤ S40.size a
  hwx0_2 : ∀ i : grid0.Coords, EltTy.bits .f32 = 32 ∨ (Rect.block (s := S40) S40.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v0) S12288x40.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S40x12288.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x40 : Shape := ⟨2, ![1000000, 40]⟩
abbrev S40x1000000 : Shape := ⟨2, ![40, 1000000]⟩
abbrev S40 : Shape := ⟨1, ![40]⟩
abbrev S_ : Shape := ⟨0, ![]⟩
abbrev S1x40 : Shape := ⟨2, ![1, 40]⟩
abbrev S1000000 : Shape := ⟨1, ![1000000]⟩

abbrev nBuf : Space → Nat
  | .hbm => 40
  | .vmem => 0
  | .smem => 0
  | _ => 0

abbrev bufTy : (tb : Table) → Fin (tcTables nBuf tb) → BufTy
  | .hbm, ⟨0, _⟩ => ⟨S1000000x40, .f32⟩
  | .hbm, ⟨1, _⟩ => ⟨S40x1000000, .i32⟩
  | .hbm, ⟨2, _⟩ => ⟨S40, .f32⟩
  | .hbm, ⟨3, _⟩ => ⟨S1000000x40, .i32⟩
  | .hbm, ⟨4, _⟩ => ⟨S1000000x40, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S1000000x40, .f32⟩
  | .hbm, ⟨9, _⟩ => ⟨S1000000x40, .f32⟩
  | .hbm, ⟨10, _⟩ => ⟨S_, .f32⟩
  | .hbm, ⟨11, _⟩ => ⟨S1000000x40, .f32⟩
  | .hbm, ⟨12, _⟩ => ⟨S1000000x40, .f32⟩
  | .hbm, ⟨13, _⟩ => ⟨S1000000x40, .f32⟩
  | .hbm, ⟨14, _⟩ => ⟨S1000000x40, .f32⟩
  | .hbm, ⟨15, _⟩ => ⟨S_, .f32⟩
  | .hbm, ⟨16, _⟩ => ⟨S1000000x40, .f32⟩
  | .hbm, ⟨17, _⟩ => ⟨S1000000x40, .f32⟩
  | .hbm, ⟨18, _⟩ => ⟨S1000000x40, .f32⟩
  | .hbm, ⟨19, _⟩ => ⟨S1000000x40, .f32⟩
  | .hbm, ⟨20, _⟩ => ⟨S1000000x40, .f32⟩
  | .hbm, ⟨21, _⟩ => ⟨S1000000x40, .f32⟩
  | .hbm, ⟨22, _⟩ => ⟨S1000000x40, .f32⟩
  | .hbm, ⟨23, _⟩ => ⟨S1x40, .f32⟩
  | .hbm, ⟨24, _⟩ => ⟨S_, .f32⟩
  | .hbm, ⟨25, _⟩ => ⟨S1000000x40, .f32⟩
  | .hbm, ⟨26, _⟩ => ⟨S1000000x40, .f32⟩
  | .hbm, ⟨27, _⟩ => ⟨S_, .f32⟩
  | .hbm, ⟨28, _⟩ => ⟨S1000000x40, .f32⟩
  | .hbm, ⟨29, _⟩ => ⟨S1000000x40, .f32⟩
  | .hbm, ⟨30, _⟩ => ⟨S1000000x40, .f32⟩
  | .hbm, ⟨31, _⟩ => ⟨S1000000x40, .f32⟩
  | .hbm, ⟨32, _⟩ => ⟨S1000000x40, .f32⟩
  | .hbm, ⟨33, _⟩ => ⟨S_, .f32⟩
  | .hbm, ⟨34, _⟩ => ⟨S1000000, .f32⟩
  | .hbm, ⟨35, _⟩ => ⟨S_, .f32⟩
  | .hbm, ⟨36, _⟩ => ⟨S1000000, .f32⟩
  | .hbm, ⟨37, _⟩ => ⟨S1000000, .f32⟩
  | .hbm, ⟨38, _⟩ => ⟨S_, .f32⟩
  | .hbm, ⟨39, _⟩ => ⟨S_, .f32⟩
  | _, _ => ⟨S1000000x40, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩

abbrev nD : Nat := 1
abbrev τ : Topo := Topo.v7x

variable {F : FTy → Type} [FloatOps F]

class Facts₀ : Prop where
  transposes_S40x1000000_S1000000x40_1_0 : S40x1000000.Transposes [1, 0] S1000000x40
  bcast_S_S1000000x40 : S_.BroadcastsInDim S1000000x40 (![] : Fin 0 → Fin S1000000x40.rank)
  bcast_S40_S1x40_1 : S40.BroadcastsInDim S1x40 (![1] : Fin 1 → Fin S1x40.rank)
  bcast_S1x40_S1000000x40_0_1 : S1x40.BroadcastsInDim S1000000x40 (![0, 1] : Fin 2 → Fin S1000000x40.rank)
  reducesTo_S1000000x40_S1000000_d1 : S1000000x40.ReducesTo [1] S1000000
  h_S_ : 0 < S_.numel
  bcast_S_S1000000 : S_.BroadcastsInDim S1000000 (![] : Fin 0 → Fin S1000000.rank)
  reducesTo_S1000000_S_d0 : S1000000.ReducesTo [0] S_

variable [Facts₀]

class Facts : Prop extends Facts₀ where

variable [Facts]
-- ==== Proof.FocalFinite.lean ====
/-
  What the precondition says of the inputs: every probability is a real number.

  The precondition is the conjunction of two "all entries have absolute value below +∞" tests, one per float
  input.  An and-reduction that comes out one met only ones, so every entry x of the probabilities satisfies
  max x (−x) < ⊤ on the extended reals, which excludes both infinities.
-/
import proofs.«101112_j15968688407054_1_alg».proof.Pre_finite_inputs
import Idealize.ShloMosaic.PureOps.Ideal
import Idealize.ShloMosaic.Lib.ReduceAll
import Idealize.ShloMosaic.Lib.ValueIdx

noncomputable section

namespace Cert.Focal

open Idealize.ShloMosaic

/-- The word of +∞ denotes the top of the extended reals. -/
theorem ofBits_inf : Ideal.ofBits .f32 0x7F800000#32 = (⊤ : EReal) := by
  simp [Ideal.ofBits, Ideal.ieee]

/-- An extended real whose absolute value is below +∞ is a real number. -/
theorem real_of_abs_lt_top (x : EReal) (h : max x (-x) < ⊤) : ∃ r : ℝ, x = (r : EReal) := by
  induction x using EReal.rec with
  | bot => simp at h
  | top => simp at h
  | coe r => exact ⟨r, rfl⟩

/-- Under the precondition every entry of the first input is a real number. -/
theorem finite_of_pre [Cert.Pre_finite_inputs.Facts]
    (x0 : FVec Ideal Cert.Pre_finite_inputs.S1000000x40 .f32) (x1 : IVec Cert.Pre_finite_inputs.S40x1000000 32)
    (x2 : FVec Ideal Cert.Pre_finite_inputs.S40 .f32)
    (h : Cert.Pre_finite_inputs.fn (F := Ideal) x0 x1 x2 = fun _ => 1#1) (i : Cert.Pre_finite_inputs.S1000000x40.Idx) :
    ∃ r : ℝ, x0 i = (r : EReal) := by
  have h0 := congrFun h ValueIdx.ix0
  dsimp only [Cert.Pre_finite_inputs.fn] at h0
  obtain ⟨h1, -⟩ := IntOp.andi_eq_one.1 h0
  haveI : Subsingleton Cert.Pre_finite_inputs.S_.Idx := ⟨fun a b => funext fun d => d.elim0⟩
  have e := Host.reduce_andi_all _ _ _ _ _ h1 i
  apply real_of_abs_lt_top
  have e' : Ideal.cmp .olt (max (x0 i) (-x0 i)) (Ideal.ofBits .f32 0x7F800000#32) = 1#1 := e
  rw [ofBits_inf] at e'
  by_contra hlt
  simp [Ideal.cmp, hlt] at e'

end Cert.Focal

end
-- ==== Proof.LibTiledSum.lean ====
/-
  A sum taken tile by tile over a padded, masked range — a general lemma, with no program in sight.

  A kernel that reduces B entries on a grid of n tiles of T entries each (B ≤ n·T) pads the range to n·T, masks the
  entries from B on to zero, sums each tile and adds the tiles' sums up.  In any commutative monoid (the extended
  reals among them: their addition commutes and associates) the result is the sum of the first B entries:
  `sum_tiles_masked`.  Under it, `sum_tiles_range`: n tiles of T consecutive numbers cover 0 … n·T − 1.  Also here,
  `sum_idx1`: a sum over a rank-one shape's indices is the sum over the coordinate.
-/
import Idealize.ShloMosaic.Lib.ValueIdx
import Mathlib.Algebra.BigOperators.Fin
import Mathlib.Logic.Equiv.Fin.Basic

noncomputable section

namespace Cert.LibTiledSum

open Idealize.ShloMosaic

/-! ## A sum over a vector's indices -/

/-- A vector's index is its one coordinate. -/
def idxEquiv1 {n : ℕ} : Fin n ≃ (⟨1, ![n]⟩ : Shape).Idx where
  toFun := ValueIdx.ix1
  invFun j := j 0
  left_inv _ := rfl
  right_inv j := (ValueIdx.eq_ix1 j).symm

/-- So a sum over a vector's indices is the sum over the coordinate. -/
theorem sum_idx1 {M : Type*} [AddCommMonoid M] {n : ℕ} (f : (⟨1, ![n]⟩ : Shape).Idx → M) :
    ∑ j, f j = ∑ b : Fin n, f (ValueIdx.ix1 b) :=
  (Equiv.sum_comp idxEquiv1 f).symm

/-! ## A sum taken tile by tile over a padded, masked range -/

/-- `n` tiles of `T` consecutive numbers cover `0 … n·T − 1`. -/
theorem sum_tiles_range {M : Type*} [AddCommMonoid M] (n T : ℕ) (f : ℕ → M) :
    ∑ i : Fin n, ∑ r : Fin T, f (i.val * T + r.val) = ∑ j ∈ Finset.range (n * T), f j := by
  calc ∑ i : Fin n, ∑ r : Fin T, f (i.val * T + r.val)
      = ∑ p : Fin n × Fin T, f (p.1.val * T + p.2.val) :=
        (Fintype.sum_prod_type' (fun (i : Fin n) (r : Fin T) => f (i.val * T + r.val))).symm
    _ = ∑ p : Fin n × Fin T, f ((finProdFinEquiv p).val) :=
        Finset.sum_congr rfl (fun p _ => by rw [finProdFinEquiv_apply_val, Nat.mul_comm, Nat.add_comm])
    _ = ∑ j : Fin (n * T), f j.val := Equiv.sum_comp finProdFinEquiv (fun j => f j.val)
    _ = ∑ j ∈ Finset.range (n * T), f j := Fin.sum_univ_eq_sum_range f (n * T)

/-- The tiles' sums of the entries below `B`, the others masked to zero, add up to the sum of the first `B`
    entries: the padded tail contributes nothing. -/
theorem sum_tiles_masked {M : Type*} [AddCommMonoid M] (n T B : ℕ) (hB : B ≤ n * T) (g : ℕ → M) :
    ∑ i : Fin n, ∑ r : Fin T, (if i.val * T + r.val < B then g (i.val * T + r.val) else 0)
      = ∑ b : Fin B, g b.val := by
  rw [sum_tiles_range n T (fun j => if j < B then g j else 0), Fin.sum_univ_eq_sum_range g B,
    ← Finset.sum_subset (Finset.range_subset_range.2 hB)
      (fun j _ hj => if_neg (fun h => hj (Finset.mem_range.2 h)))]
  exact Finset.sum_congr rfl (fun j hj => if_pos (Finset.mem_range.1 hj))

end Cert.LibTiledSum

end
-- ==== Proof.FocalSpec.lean ====
/-
  The mathematics of the weighted focal binary-cross-entropy loss, with no program in sight.

  For a probability x, an integer label t and a weight a, one entry of the loss is
      a · (1 − x)² · −( t · log p + (1 − t) · log(1 + (−p)) ),   p = min 1 (max ε x),
  read on the extended reals.  Two spellings of the square occur: the product (1 − x)·(1 − x) and the power
  (1 − x)^2; they agree when x is finite (at x = ⊤ the product is ⊤ and the power is ⊥).  The total is the sum over
  all samples of the mean over the attributes; the mean is either a quotient by 40 or a product with 1/40, which are
  one function on every extended real.  (That the sum over the samples may be taken tile by tile over a padded range,
  the padded entries masked to zero, is the general lemma of the module this one imports.)
-/
import Idealize.ShloMosaic.PureOps.Ideal
import Idealize.ShloMosaic.PureOps.Ideal.Laws
import proofs.«101112_j15968688407054_1_alg».proof.Proof.LibTiledSum

noncomputable section

namespace Cert.Focal

open Idealize.ShloMosaic

/-! ## The float words the two programs spell -/

/-- The word of `1.0` denotes the real one. -/
theorem ofBits_one : Ideal.ofBits .f32 0x3F800000#32 = ((1 : ℝ) : EReal) := by
  simp [Ideal.ofBits, Ideal.ieee, -EReal.coe_mul]; norm_num

/-- The word of `2.0` denotes the real two. -/
theorem ofBits_two : Ideal.ofBits .f32 0x40000000#32 = ((2 : ℝ) : EReal) := by
  simp [Ideal.ofBits, Ideal.ieee, -EReal.coe_mul]; norm_num

/-- The word of `40.0` denotes the real forty. -/
theorem ofBits_forty : Ideal.ofBits .f32 0x42200000#32 = ((40 : ℝ) : EReal) := by
  simp [Ideal.ofBits, Ideal.ieee, -EReal.coe_mul]; norm_num

/-! ## The square -/

/-- On a finite number the power with exponent two is the product with itself. -/
theorem pow_two_eq_mul_self (y : ℝ) :
    Ideal.pow (y : EReal) (Ideal.ofBits .f32 0x40000000#32) = (y : EReal) * (y : EReal) := by
  rw [ofBits_two, Ideal.pow_coe_coe, ← EReal.coe_mul]
  congr 1
  show y ^ (2 : ℝ) = y * y
  rw [Real.rpow_two, sq]

/-- One minus a finite number is finite. -/
theorem one_sub_coe (x : ℝ) : Ideal.ofBits .f32 0x3F800000#32 - (x : EReal) = ((1 - x : ℝ) : EReal) := by
  rw [ofBits_one, ← EReal.coe_sub]

/-- So for a finite `x` the power `(1 − x)^2` is the product `(1 − x)·(1 − x)`. -/
theorem pow_one_sub (x : ℝ) :
    Ideal.pow (Ideal.ofBits .f32 0x3F800000#32 - (x : EReal)) (Ideal.ofBits .f32 0x40000000#32)
      = (Ideal.ofBits .f32 0x3F800000#32 - (x : EReal)) * (Ideal.ofBits .f32 0x3F800000#32 - (x : EReal)) := by
  rw [one_sub_coe, pow_two_eq_mul_self]

/-! ## The mean over forty attributes -/

/-- The quotient by forty is the product with one fortieth, on every extended real. -/
theorem div_forty (s : EReal) :
    Ideal.div s (Ideal.ofBits .f32 0x42200000#32) = s * ((1 / 40 : ℝ) : EReal) := by
  rw [ofBits_forty]; exact Ideal.div_coe (by norm_num) s

/-! ## One entry of the loss -/

/-- One entry: weight times squared complement times the negated cross-entropy of the clipped probability,
    the label an integer read exactly. The literals are the two programs' own words (ε and 1). -/
def entry (x : EReal) (t : BitVec 32) (a : EReal) : EReal :=
  a * ((Ideal.ofBits .f32 0x3F800000#32 - x) * (Ideal.ofBits .f32 0x3F800000#32 - x))
    * -(((t.toInt : ℝ) : EReal) * Ideal.log (min (Ideal.ofBits .f32 0x3F800000#32) (max (Ideal.ofBits .f32 0x2B8CBCCC#32) x))
        + (Ideal.ofBits .f32 0x3F800000#32 - ((t.toInt : ℝ) : EReal))
          * Ideal.log1p (-(min (Ideal.ofBits .f32 0x3F800000#32) (max (Ideal.ofBits .f32 0x2B8CBCCC#32) x))))

/-- The total: over the samples, the sum over the attributes of the entries, times one fortieth. -/
def total (B A : ℕ) (e : Fin B → Fin A → EReal) : EReal :=
  ∑ b : Fin B, (∑ a : Fin A, e b a) * ((1 / 40 : ℝ) : EReal)

end Cert.Focal

end
-- ==== Proof.FocalRef.lean ====
/-
  The reference's result, read operation by operation: the total loss of the specification.

  At a sample b and an attribute a the reference's product is the weight of a, times the power (1 − x)^2, times the
  negated cross-entropy of the clipped probability, the label converted exactly; for a finite x the power is the
  product (1 − x)·(1 − x), so the product is the specification's entry.  The row sum starts from zero, the mean is the
  quotient by forty (the product with one fortieth on every extended real), and the last sum, also from zero, runs
  over the samples.
-/
import proofs.«101112_j15968688407054_1_alg».proof.Proof.Gen.ReferenceIdeal.Read
import proofs.«101112_j15968688407054_1_alg».proof.Proof.FocalSpec

noncomputable section

namespace Cert.Focal.Ref

open Idealize.ShloMosaic Idealize.ShloMosaic.ValueIdx
open Cert.ReferenceIdeal Cert.ReferenceIdeal.Gen Cert.ReferenceIdeal.Read

/-- The transposed label index of (b, a) is (a, b). -/
theorem idx_label (b : Fin 1000000) (a : Fin 40) : idx_main_v0 (ix2 b a) = ix2 a b :=
  funext fun d => match d with | ⟨0, _⟩ => rfl | ⟨1, _⟩ => rfl

/-- The weight read at (b, a), through its two broadcasts, is the weight of a. -/
theorem idx_weight (b : Fin 1000000) (a : Fin 40) : idx_main_v12 (idx_main_v17 (ix2 b a)) = ix1 a :=
  funext fun d => match d with | ⟨0, _⟩ => rfl

/-- The row sum at b runs over the entries (b, k). -/
theorem idx_row (b : Fin 1000000) (k : Fin 40) : idx_main_v20 (ix1 b) k = ix2 b k :=
  funext fun d => match d with | ⟨0, _⟩ => rfl | ⟨1, _⟩ => rfl

/-- An integer label converted to a float is the integer. -/
theorem sitofp_word (w : BitVec 32) : FloatOps.sitofp (F := Ideal) .f32 w = ((w.toInt : ℝ) : EReal) := rfl

/-- The reference's product at (b, a), for a finite probability there, is the specification's entry. -/
theorem product_apply (x0 : (⟨S1000000x40, .f32⟩ : BufTy).Contents (Elt Ideal)) (x1 : (⟨S40x1000000, .i32⟩ : BufTy).Contents (Elt Ideal))
    (x2 : (⟨S40, .f32⟩ : BufTy).Contents (Elt Ideal)) (b : Fin 1000000) (a : Fin 40) (r : ℝ) (hr : x0 (ix2 b a) = (r : EReal)) :
    val_main_v19 (F := Ideal) x0 x1 x2 (ix2 b a) = Cert.Focal.entry (x0 (ix2 b a)) (x1 (ix2 a b)) (x2 (ix1 a)) := by
  simp only [val_main_v19_apply, val_main_v18_apply, val_main_v17_apply, val_main_v12_apply, val_main_v16_apply,
    val_main_v14_apply, val_main_v13_apply, val_main_cst_2_apply, val_main_v15_apply, val_main_cst_3_apply,
    val_main_v11_apply, val_main_v10_apply, val_main_v4_apply, val_main_v1_apply, val_main_v0_apply, val_main_v3_apply,
    val_main_v2_apply, val_main_call0_v4_apply, val_main_call0_v3_apply, val_main_cst_0_apply, val_main_call0_v2_apply,
    val_main_call0_v1_apply, val_main_call0_v0_apply, val_main_cst_apply, val_main_v9_apply, val_main_v6_apply,
    val_main_v5_apply, val_main_cst_1_apply, val_main_v8_apply, val_main_v7_apply,
    idx_label, idx_weight, sitofp_word,
    Ideal.mulf_def, Ideal.subf_def, Ideal.addf_def, Ideal.hostPowf_def, Ideal.hostNegf_def, Ideal.negf_def,
    Ideal.hostUnary_log_def, Ideal.hostUnary_log1p_def, Ideal.minimumf_def, Ideal.maximumf_def, Ideal.ofBits_def]
  unfold Cert.Focal.entry
  rw [hr, Cert.Focal.pow_one_sub]

/-- The reference's result is the specification's total of the entries, when every probability is finite. -/
theorem result_eq (x0 : (⟨S1000000x40, .f32⟩ : BufTy).Contents (Elt Ideal)) (x1 : (⟨S40x1000000, .i32⟩ : BufTy).Contents (Elt Ideal))
    (x2 : (⟨S40, .f32⟩ : BufTy).Contents (Elt Ideal)) (hfin : ∀ i, ∃ r : ℝ, x0 i = (r : EReal)) (i : S_.Idx) :
    val_main_v23 (F := Ideal) x0 x1 x2 i
      = Cert.Focal.total 1000000 40 (fun b a => Cert.Focal.entry (x0 (ix2 b a)) (x1 (ix2 a b)) (x2 (ix1 a))) := by
  rw [val_main_v23_apply, val_main_cst_6_apply, Ideal.ofBits_def, Ideal.ofBits_zero_f32, zero_add, Cert.LibTiledSum.sum_idx1]
  unfold Cert.Focal.total
  refine Finset.sum_congr rfl fun b _ => ?_
  rw [val_main_v22_apply, val_main_v21_apply, val_main_cst_5_apply, val_main_v20_apply, val_main_cst_4_apply,
    Ideal.ofBits_def, Ideal.ofBits_def, Ideal.ofBits_zero_f32, zero_add, Ideal.hostDivf_def, Cert.Focal.div_forty]
  refine congrArg (· * _) (Finset.sum_congr rfl fun a _ => ?_)
  obtain ⟨r, hr⟩ := hfin (ix2 b a)
  rw [idx_row, product_apply x0 x1 x2 b a r hr]

end Cert.Focal.Ref

end
-- ==== Proof.FocalPieces.lean ====
/-
  What one grid point leaves in the accumulator, as a value.

  The accumulator is a single cell.  At the first grid point the body clears it and then adds the tile's partial
  sum to the cleared cell; at every later point it adds the tile's partial sum to what the point before left.  In
  both cases the cell ends at "previous contents + partial sum", the previous contents being zero at the first point:
  the one covering store's payload, its loads reading the whole staging buffers.
-/
import proofs.«101112_j15968688407054_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F] [Named F]

theorem hz2 : (![0, 0] : Fin 2 → Nat) = fun _ => 0 := funext fun a => by fin_cases a <;> rfl
theorem hz1 : (![0] : Fin 1 → Nat) = fun _ => 0 := funext fun a => by fin_cases a; rfl

/-- A later point: the cell holding `acc` ends at the accumulate payload of the tile's row sums and `acc`. -/
theorem out_later (c : Dev nD) (i : grid0.Coords) (arg1 : Memref sig .tc .vmem S12288x40 .f32) (harg1 : arg1.IsWhole)
    (arg2 : Memref sig .tc .vmem S40x12288 .i32) (harg2 : arg2.IsWhole) (arg3 : Memref sig .tc .vmem S40 .f32) (harg3 : arg3.IsWhole)
    (arg4 : Memref sig .tc .vmem S1x1 .f32) (harg4 : arg4.IsWhole) (hc0 : ¬cond0_0 i)
    (x0 : Vec F S12288x40 .f32) (x1 : Vec F S40x12288 .i32) (x2 : Vec F S40 .f32) (acc : Vec F S1x1 .f32) :
    out0_B_3 c i arg1 harg1 arg2 harg2 arg3 harg3 arg4 harg4 hc0 x0 x1 x2 acc = k0_pay1 (k0_pay3 i x0 x1 x2) acc := by
  unfold out0_B_3
  rw [View.read_writes_eq_canon _ _ _ (cover0_B_3 c i arg1 harg1 arg2 harg2 arg3 harg3 arg4 harg4 hc0 x0 x1 x2 acc)]
  unfold kernelRun0_B
  dsimp only
  sl_unfold_words
  rw [View.canon_unit_zero hz2]
  simp only [View.readAt_eq_ld, harg1.read_unread, harg2.read_unread, harg3.read_unread, harg4.read_unread,
    View.ld_unit_zero (S := S12288x40) hz2, View.ld_unit_zero (S := S40x12288) hz2, View.ld_unit_zero (S := S40) hz1,
    View.ld_unit_zero (S := S1x1) hz2]

/-- The first point: the cell is cleared, read back, and ends at the accumulate payload of the tile's row sums and
    the cleared cell. -/
theorem out_first (c : Dev nD) (i : grid0.Coords) (arg1 : Memref sig .tc .vmem S12288x40 .f32) (harg1 : arg1.IsWhole)
    (arg2 : Memref sig .tc .vmem S40x12288 .i32) (harg2 : arg2.IsWhole) (arg3 : Memref sig .tc .vmem S40 .f32) (harg3 : arg3.IsWhole)
    (arg4 : Memref sig .tc .vmem S1x1 .f32) (harg4 : arg4.IsWhole) (hc0 : cond0_0 i)
    (x0 : Vec F S12288x40 .f32) (x1 : Vec F S40x12288 .i32) (x2 : Vec F S40 .f32) :
    out0_A_3 c i arg1 harg1 arg2 harg2 arg3 harg3 arg4 harg4 hc0 x0 x1 x2 = k0_pay1 (k0_pay3 i x0 x1 x2) (k0_pay2 (F := F)) := by
  unfold out0_A_3
  rw [View.read_writes_eq_canon _ _ _ (cover0_A_3 c i arg1 harg1 arg2 harg2 arg3 harg3 arg4 harg4 hc0 x0 x1 x2)]
  unfold kernelRun0_A
  dsimp only
  sl_unfold_words
  rw [View.canon_cons_unit_zero (S := S1x1) hz2, View.readCov_unit_zero (S := S1x1) _ hz2]
  simp only [View.readAt_eq_ld, harg1.read_unread, harg2.read_unread, harg3.read_unread,
    View.ld_unit_zero (S := S12288x40) hz2, View.ld_unit_zero (S := S40x12288) hz2, View.ld_unit_zero (S := S40) hz1,
    View.ld_unit_zero (S := S1x1) hz2]

end Cert.KernelIdeal.Pieces

end
-- ==== Proof.FocalPayload.lean ====
/-
  The body's two payloads, read at an index on the extended reals.

  The row payload: row r of tile i is the sum over the forty attributes of the masked entries — the specification's
  entry of the loaded probability, label (transposed) and weight when the global row number 12288·i + r is below
  1 000 000, and zero otherwise.  The accumulate payload: the accumulator cell plus the sum over the tile's 12288 rows
  of the row sum times one fortieth (the named constant).
-/
import proofs.«101112_j15968688407054_1_alg».proof.Proof.Gen.KernelIdeal.Skeleton
import proofs.«101112_j15968688407054_1_alg».proof.Proof.FocalSpec
import Idealize.ShloMosaic.Lib.Pipeline.Value
import Idealize.ShloMosaic.Lib.ValueLayout
import Idealize.ShloMosaic.Lib.ValueIdx
import Idealize.ShloMosaic.Lib.StableHlo.Predicate
import Idealize.ShloMosaic.PureOps.Ideal.Laws
import Idealize.ShloMosaic.PureOps.IdealRules

noncomputable section

open Idealize.ShloMosaic Idealize.ShloMosaic.ValueIdx

namespace Cert.KernelIdeal.Payload

open Cert.KernelIdeal Cert.KernelIdeal.Gen

/-! ## Small readings, over variables -/

/-- The named reciprocal denotes one fortieth. -/
theorem inv_40 : Named.named (F := Ideal) κ "inv_40" (φ := .f32) 0x3CCCCCCD#32 = ((1 / 40 : ℝ) : EReal) :=
  IdealRules.named_const.ideal_named_scalar _ _ _ _ rfl

/-- The mask word: row r of tile n is a real row exactly when 12288·n + r < 1 000 000 (no 32-bit wrap: n < 82). -/
theorem mask_iff (n r : ℕ) (hn : n < 82) (hr : r < 12288) :
    IntOp.cmpi .slt (IntOp.addi (Scalar.muli (BitVec.ofNat 32 n) 12288#32) (BitVec.ofNat 32 r)) 1000000#32 = 1#1
      ↔ n * 12288 + r < 1000000 := by
  have e : (IntOp.addi (Scalar.muli (BitVec.ofNat 32 n) 12288#32) (BitVec.ofNat 32 r)).toNat = n * 12288 + r := by
    show ((BitVec.ofNat 32 n) * 12288#32 + BitVec.ofNat 32 r).toNat = _
    rw [BitVec.toNat_add, BitVec.toNat_mul, BitVec.toNat_ofNat, BitVec.toNat_ofNat, BitVec.toNat_ofNat]
    omega
  rw [StableHlo.Predicate.slt_iff_toNat (by rw [e]; omega) (by decide), e]
  rfl

/-- The reduced index (r) with attribute a inserted is (r, a). -/
theorem lift_row (h : S12288x40.Reduces [1] S12288) (r : Fin 12288) (a : Fin 40) : h.lift (ix1 r) a = ix2 r a :=
  funext fun c => Fin.ext (by match c with | ⟨0, _⟩ => rfl | ⟨1, _⟩ => rfl)

/-- A row sum of a [12288, 40] vector is the sum over the forty attributes. -/
theorem rowsum_read (v : FVec Ideal S12288x40 .f32) (h : S12288x40.Reduces [1] S12288) (hφ : FKind.Formats .f32)
    (hacc : (0x00000000#32 : BitVec 32) = FKind.add.neutral .f32 hφ) (r : Fin 12288) :
    multiReduction .add [1] S12288 v 0x00000000#32 h hφ hacc (ix1 r) = ∑ a : Fin 40, v (ix2 r a) :=
  (Ideal.multiReduction_add_single v 0x00000000#32 h hφ hacc (ix1 r)).trans
    (Finset.sum_congr rfl fun a _ => congrArg v (lift_row h r a))

/-- The reduced index (0) with lane k inserted is (0, k). -/
theorem lift_lane (h : S1x12288.Reduces [1] S1) (k : Fin 12288) : h.lift (ix1 (0 : Fin 1)) k = ix2 (0 : Fin 1) k :=
  funext fun c => Fin.ext (by match c with | ⟨0, _⟩ => rfl | ⟨1, _⟩ => rfl)

/-- The lane sum of a [1, 12288] vector is the sum over its 12288 lanes. -/
theorem lanesum_read (w : FVec Ideal S1x12288 .f32) (h : S1x12288.Reduces [1] S1) (hφ : FKind.Formats .f32)
    (hacc : (0x00000000#32 : BitVec 32) = FKind.add.neutral .f32 hφ) :
    multiReduction .add [1] S1 w 0x00000000#32 h hφ hacc (ix1 (0 : Fin 1)) = ∑ k : Fin 12288, w (ix2 (0 : Fin 1) k) :=
  (Ideal.multiReduction_add_single w 0x00000000#32 h hφ hacc (ix1 (0 : Fin 1))).trans
    (Finset.sum_congr rfl fun k _ => congrArg w (lift_lane h k))

/-- Extracting position (0, 0) of a one-cell vector reads its cell. -/
theorem cell_extract {α : Type} (w : S1x1.Idx → α) (h : ∀ a, (![0, 0] : Fin 2 → Nat) a < S1x1.size a) :
    extractAt ![0, 0] w h = w (ix2 (0 : Fin 1) (0 : Fin 1)) :=
  congrArg w (funext fun a => Fin.ext (by match a with | ⟨0, _⟩ => rfl | ⟨1, _⟩ => rfl))

/-! ## The accumulate payload -/

/-- The accumulator cell after a point: its contents before, plus the tile's row sums each times one fortieth. -/
theorem accumulate_apply (v40 : FVec Ideal S12288 .f32) (v47 : Vec Ideal S1x1 .f32) :
    k0_pay1 (F := Ideal) v40 v47 (ix2 (0 : Fin 1) (0 : Fin 1))
      = v47 (ix2 (0 : Fin 1) (0 : Fin 1)) + ∑ r : Fin 12288, v40 (ix1 r) * ((1 / 40 : ℝ) : EReal) := by
  unfold k0_pay1
  show (shapeCast S1x1 v47 shapeCasts_S1x1_S1x1) (ix2 (0 : Fin 1) (0 : Fin 1))
      + extractAt ![0, 0] (shapeCast S1x1 (multiReduction .add [1] S1
          (shapeCast S1x12288 (mulf v40 (broadcast S12288 (Named.named κ "inv_40" 0x3CCCCCCD#32))) shapeCasts_S12288_S1x12288)
          0x00000000#32 reduces_S1x12288_S1 (.inl rfl) rfl) shapeCasts_S1_S1x1) inpos_S1x1_p0_0 = _
  rw [shapeCast_self, cell_extract, shapeCast_a_1a_apply]
  refine (congrArg (_ + ·) (lanesum_read _ _ _ _)).trans ?_
  refine congrArg (_ + ·) (Finset.sum_congr rfl fun k _ => ?_)
  rw [shapeCast_a_1a_apply]
  show v40 (ix1 k) * Named.named (F := Ideal) κ "inv_40" (φ := .f32) 0x3CCCCCCD#32 = _
  rw [inv_40]

/-! ## The row payload -/

/-- The body's mask at (r, a) of tile i is set exactly on the real rows. -/
theorem mask_at (i : grid0.Coords) (r : Fin 12288) (a : Fin 40) (hι : S12288x40.Iotas .tc 32 [0]) :
    cmpi .slt (addi (broadcast S12288x40 (Scalar.muli (BitVec.ofNat 32 (i 0).val) 12288#32)) (iota .tc S12288x40 32 [0] hι))
        (broadcast S12288x40 1000000#32) (ix2 r a) = 1#1
      ↔ (i 0).val * 12288 + r.val < 1000000 := by
  show IntOp.cmpi .slt (IntOp.addi (Scalar.muli (BitVec.ofNat 32 (i 0).val) 12288#32)
      (iota .tc S12288x40 32 [0] hι (ix2 r a))) 1000000#32 = 1#1 ↔ _
  rw [iota_single_apply]
  exact mask_iff _ _ (i 0).isLt r.isLt

/-- Row r of tile i: the sum over the attributes of the entries, masked to zero past the last real row. -/
theorem rowsum_apply (i : grid0.Coords) (v3 : Vec Ideal S12288x40 .f32) (v5 : Vec Ideal S40x12288 .i32) (v24 : Vec Ideal S40 .f32)
    (r : Fin 12288) :
    k0_pay3 (F := Ideal) i v3 v5 v24 (ix1 r)
      = ∑ a : Fin 40, (if (i 0).val * 12288 + r.val < 1000000
          then Cert.Focal.entry (v3 (ix2 r a)) (v5 (ix2 a r)) (v24 (ix1 a)) else 0) := by
  unfold k0_pay3
  dsimp only
  refine (rowsum_read _ _ _ _ r).trans (Finset.sum_congr rfl fun a _ => ?_)
  by_cases hc : (i 0).val * 12288 + r.val < 1000000
  · rw [if_pos hc]
    refine (select_apply _ _ _ _).trans ?_
    refine (congrArg (fun b => Scalar.select b _ _) ((mask_at i r a _).2 hc)).trans ?_
    refine (select_one _ _).trans ?_
    rw [shapeCast_self, shapeCast_self]
    show (broadcastTo S12288x40 (shapeCast S1x40 v24 shapeCasts_S40_S1x40) broadcasts_S1x40_S12288x40 (ix2 r a)
            * ((Ideal.ofBits .f32 0x3F800000#32 - v3 (ix2 r a)) * (Ideal.ofBits .f32 0x3F800000#32 - v3 (ix2 r a))))
          * (Ideal.ofBits .f32 0x00000000#32 - (
              ((((transpose S12288x40 [1, 0] v5 transposes_S40x12288_p1_0_S12288x40 (ix2 r a)).toInt : ℝ) : EReal)
                * Ideal.log (min (Ideal.ofBits .f32 0x3F800000#32) (max (Ideal.ofBits .f32 0x2B8CBCCC#32) (v3 (ix2 r a)))))
              + (Ideal.ofBits .f32 0x3F800000#32
                  - (((transpose S12288x40 [1, 0] v5 transposes_S40x12288_p1_0_S12288x40 (ix2 r a)).toInt : ℝ) : EReal))
                * Ideal.log1p (Ideal.ofBits .f32 0x00000000#32
                    - min (Ideal.ofBits .f32 0x3F800000#32) (max (Ideal.ofBits .f32 0x2B8CBCCC#32) (v3 (ix2 r a)))))) = _
    rw [broadcastTo_1b_ab_apply, shapeCast_a_1a_apply, transpose_ix2_apply, Ideal.ofBits_zero_f32, zero_sub, zero_sub]
    rfl
  · rw [if_neg hc]
    refine (select_apply _ _ _ _).trans ?_
    refine (congrArg (fun b => Scalar.select b _ _) (eq_zero_of_ne_one (mt (mask_at i r a _).1 hc))).trans ?_
    refine (select_zero _ _).trans ?_
    exact Ideal.ofBits_zero_f32

end Cert.KernelIdeal.Payload

end
-- ==== Proof.FocalBlocks.lean ====
/-
  What the kernel's windows read.

  Before the launch the host pads the probabilities with 7616 rows of zeros and the labels with 7616 columns of
  zeros, so that 82 tiles of 12288 samples cover them.  Tile t of the probabilities is rows 12288·t … 12288·t + 12287
  of the padded array, tile t of the labels the same columns of the padded labels, and the weights' window is the
  whole weight vector at every point.  On a real sample (number below 1 000 000) the padded arrays are the inputs.
-/
import proofs.«101112_j15968688407054_1_alg».proof.Proof.Gen.KernelIdeal.Frame
import Idealize.ShloMosaic.Lib.KernelVsHost
import Idealize.ShloMosaic.Lib.ValueIdx
import Idealize.ShloMosaic.Lib.StableHlo.Run
import Idealize.ShloMosaic.Lib.Tactic

noncomputable section

open Idealize.ShloMosaic Idealize.ShloMosaic.TcCoe Idealize.SL.Sem Idealize.ShloMosaic.ValueIdx

namespace Cert.KernelIdeal.Blocks

open Cert.KernelIdeal Cert.KernelIdeal.Gen

variable (m : (ℓ : Loc nD τ sig) → Buf (Elt Ideal) ℓ)

/-! ## The padded arrays -/

/-- The probabilities as the launch finds them: padded below with zero rows. -/
theorem padded_probs (c : Dev nD) :
    (V m c main_v0 : S1007616x40.Idx → EReal)
      = pad S1007616x40 ![0, 0] ![7616, 0] ![0, 0] (m ((c : Thread nD τ).loc main_arg0))
          (constant (F := Ideal) S_ .f32 0x00000000#32) pads_S1000000x40_S1007616x40_076160_000 h_S_ := by
  dsimp only [V, V0]
  simp only [hostOps0, hostOps0_1, hostOps0_2, hostOps0_3, List.flatten_cons, List.flatten_nil, List.append_nil,
    List.cons_append, List.nil_append]
  after_results
  rfl

/-- The labels as the launch finds them: padded on the right with zero columns. -/
theorem padded_labels (c : Dev nD) :
    (V m c main_v1 : S40x1007616.Idx → BitVec 32)
      = pad S40x1007616 ![0, 0] ![0, 7616] ![0, 0] (m ((c : Thread nD τ).loc main_arg1))
          (constantI S_ 32 0#32) pads_S40x1000000_S40x1007616_000_076160 h_S_ := by
  dsimp only [V, V0]
  simp only [hostOps0, hostOps0_1, hostOps0_2, hostOps0_3, List.flatten_cons, List.flatten_nil, List.append_nil,
    List.cons_append, List.nil_append]
  after_results
  rfl

/-! ## The index maps, decided over the grid -/

theorem idx_probs : ∀ t : Fin cfg0.N, win0_0.index t 0 = t.val ∧ win0_0.index t 1 = 0 :=
  (by decide +kernel : ∀ t : Fin grid0.N, win0_0.index t 0 = t.val ∧ win0_0.index t 1 = 0)
theorem idx_labels : ∀ t : Fin cfg0.N, win0_1.index t 0 = 0 ∧ win0_1.index t 1 = t.val :=
  (by decide +kernel : ∀ t : Fin grid0.N, win0_1.index t 0 = 0 ∧ win0_1.index t 1 = t.val)
theorem idx_weights : ∀ t : Fin cfg0.N, win0_2.index t 0 = 0 :=
  (by decide +kernel : ∀ t : Fin grid0.N, win0_2.index t 0 = 0)
/-- The grid coordinate of point t is t. -/
theorem coord_val : ∀ t : Fin cfg0.N, ((grid0.coords t) 0).val = t.val :=
  (by decide +kernel : ∀ t : Fin grid0.N, ((grid0.coords t) 0).val = t.val)

/-! ## The blocks on a real sample -/

/-- Row r of the probabilities' tile t, for a real sample, is the input's row 12288·t + r. -/
theorem probs_at (c : Dev nD) (t : Fin cfg0.N) (r : Fin 12288) (a : Fin 40) (hc : t.val * 12288 + r.val < 1000000) :
    (iblk m c 0 t : S12288x40.Idx → EReal) (ix2 r a)
      = m ((c : Thread nD τ).loc main_arg0) (ix2 ⟨t.val * 12288 + r.val, hc⟩ a) := by
  have hblk : (iblk m c 0 t : S12288x40.Idx → EReal) (ix2 r a)
      = (V m c main_v0 : S1007616x40.Idx → EReal) (ix2 ⟨t.val * 12288 + r.val, by omega⟩ a) := by
    unfold iblk
    rw [View.read_apply]
    show V m c main_v0 _ = V m c main_v0 _
    congr 1
    funext d
    apply Fin.ext
    match d with
    | ⟨0, _⟩ => show win0_0.index t 0 * 12288 + 1 * r.val = t.val * 12288 + r.val; rw [(idx_probs t).1]; omega
    | ⟨1, _⟩ => show win0_0.index t 1 * 40 + 1 * a.val = a.val; rw [(idx_probs t).2]; omega
  rw [hblk, padded_probs]
  exact pad_apply_of_inside _ _ _ _ _ _ _ (ix2 ⟨t.val * 12288 + r.val, by omega⟩ a) (ix2 ⟨t.val * 12288 + r.val, hc⟩ a)
    (fun d => match d with
      | ⟨0, _⟩ => by show t.val * 12288 + r.val = 0 + (t.val * 12288 + r.val) * (0 + 1); omega
      | ⟨1, _⟩ => by show a.val = 0 + a.val * (0 + 1); omega)

/-- Column r of the labels' tile t, for a real sample, is the input's column 12288·t + r. -/
theorem labels_at (c : Dev nD) (t : Fin cfg0.N) (r : Fin 12288) (a : Fin 40) (hc : t.val * 12288 + r.val < 1000000) :
    (iblk m c 1 t : S40x12288.Idx → BitVec 32) (ix2 a r)
      = m ((c : Thread nD τ).loc main_arg1) (ix2 a ⟨t.val * 12288 + r.val, hc⟩) := by
  have hblk : (iblk m c 1 t : S40x12288.Idx → BitVec 32) (ix2 a r)
      = (V m c main_v1 : S40x1007616.Idx → BitVec 32) (ix2 a ⟨t.val * 12288 + r.val, by omega⟩) := by
    unfold iblk
    rw [View.read_apply]
    show V m c main_v1 _ = V m c main_v1 _
    congr 1
    funext d
    apply Fin.ext
    match d with
    | ⟨0, _⟩ => show win0_1.index t 0 * 40 + 1 * a.val = a.val; rw [(idx_labels t).1]; omega
    | ⟨1, _⟩ => show win0_1.index t 1 * 12288 + 1 * r.val = t.val * 12288 + r.val; rw [(idx_labels t).2]; omega
  rw [hblk, padded_labels]
  exact pad_apply_of_inside _ _ _ _ _ _ _ (ix2 a ⟨t.val * 12288 + r.val, by omega⟩) (ix2 a ⟨t.val * 12288 + r.val, hc⟩)
    (fun d => match d with
      | ⟨0, _⟩ => by show a.val = 0 + a.val * (0 + 1); omega
      | ⟨1, _⟩ => by show t.val * 12288 + r.val = 0 + (t.val * 12288 + r.val) * (0 + 1); omega)

/-- The weights' window at any point is the weight vector. -/
theorem weights_at (c : Dev nD) (t : Fin cfg0.N) (a : Fin 40) :
    (iblk m c 2 t : S40.Idx → EReal) (ix1 a) = m ((c : Thread nD τ).loc main_arg2) (ix1 a) := by
  unfold iblk
  rw [View.read_apply]
  show V m c main_arg2 _ = _
  rw [V_main_arg2]
  congr 1
  funext d
  apply Fin.ext
  match d with
  | ⟨0, _⟩ => show win0_2.index t 0 * 40 + 1 * a.val = a.val; rw [idx_weights t]; omega

end Cert.KernelIdeal.Blocks

end
-- ==== Proof.FocalKernel.lean ====
/-
  The kernel's result: the total loss of the specification.

  After grid point n the accumulator cell holds the sum of the partial sums of tiles 0 … n (induction on the point:
  the first point starts from the cleared cell, each later point adds its tile to what the point before left).  A
  tile's partial sum is the sum over its 12288 rows of the row's mean, a row past the last real sample contributing
  zero.  The cell is written back once, after the last point, and the host reshapes the one-cell array to a scalar.
  Summing the tiles' masked rows over the 82 tiles is summing the means of the 1 000 000 samples.
-/
import proofs.«101112_j15968688407054_1_alg».proof.Proof.FocalPieces
import proofs.«101112_j15968688407054_1_alg».proof.Proof.FocalPayload
import proofs.«101112_j15968688407054_1_alg».proof.Proof.FocalBlocks
import proofs.«101112_j15968688407054_1_alg».proof.Proof.FocalSpec
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Value

open Cert.KernelIdeal Cert.KernelIdeal.Gen

variable (m : (ℓ : Loc nD τ sig) → Buf (Elt Ideal) ℓ) (ρ : Dev nD → PrngReg)

/-! ## Samples and tiles -/

/-- The entry of sample b and attribute a of the inputs. -/
abbrev entries (c : Dev nD) (b : Fin 1000000) (a : Fin 40) : EReal :=
  Cert.Focal.entry (m ((c : Thread nD τ).loc main_arg0) (ix2 b a)) (m ((c : Thread nD τ).loc main_arg1) (ix2 a b))
    (m ((c : Thread nD τ).loc main_arg2) (ix1 a))

/-- The mean over the attributes of sample number j (zero past the last sample). -/
def sample (c : Dev nD) (j : ℕ) : EReal :=
  if h : j < 1000000 then (∑ a : Fin 40, entries m c ⟨j, h⟩ a) * ((1 / 40 : ℝ) : EReal) else 0

/-- Tile n's partial sum: its rows' means, the rows past the last sample masked. -/
def tile (c : Dev nD) (n : ℕ) : EReal :=
  ∑ r : Fin 12288, (if n * 12288 + r.val < 1000000 then sample m c (n * 12288 + r.val) else 0)

/-- What the body adds to the cell at point t is tile t's partial sum. -/
theorem tile_eq (c : Dev nD) (t : Fin cfg0.N) :
    ∑ r : Fin 12288, k0_pay3 (F := Ideal) (grid0.coords t) (iblk m c 0 t) (iblk m c 1 t) (iblk m c 2 t) (ix1 r)
        * ((1 / 40 : ℝ) : EReal) = tile m c t.val := by
  unfold tile
  refine Finset.sum_congr rfl fun r _ => ?_
  refine (congrArg (· * ((1 / 40 : ℝ) : EReal))
    (Payload.rowsum_apply (grid0.coords t) (iblk m c 0 t) (iblk m c 1 t) (iblk m c 2 t) r)).trans ?_
  rw [Blocks.coord_val t]
  by_cases hc : t.val * 12288 + r.val < 1000000
  · simp only [if_pos hc]
    unfold sample
    rw [dif_pos hc]
    refine congrArg (· * ((1 / 40 : ℝ) : EReal)) (Finset.sum_congr rfl fun a _ => ?_)
    rw [Blocks.probs_at m c t r a hc, Blocks.labels_at m c t r a hc, Blocks.weights_at m c t a]
  · simp only [if_neg hc, Finset.sum_const_zero, zero_mul]

/-! ## The accumulator, point by point -/

/-- The sum of the partial sums of tiles 0 … n. -/
def partialSum (c : Dev nD) (n : ℕ) : EReal := ∑ i ∈ Finset.range (n + 1), tile m c i

/-- The cleared cell holds zero. -/
theorem cleared_cell : k0_pay2 (F := Ideal) (ix2 (0 : Fin 1) (0 : Fin 1)) = 0 := Ideal.ofBits_zero_f32

/-- After point n the cell holds the partial sums of tiles 0 … n. -/
theorem cell_after (c : Dev nD) : ∀ (n : ℕ) (h : n < cfg0.N),
    outsAt0 m c n h (ix2 (0 : Fin 1) (0 : Fin 1)) = partialSum m c n
  | 0, h => by
    have e := congrFun ((outsAt0_A m c ⟨0, h⟩ rfl).trans (Pieces.out_first ..)) (ix2 (0 : Fin 1) (0 : Fin 1))
    refine e.trans ((Payload.accumulate_apply _ _).trans ?_)
    rw [cleared_cell, zero_add, tile_eq m c ⟨0, h⟩]
    unfold partialSum
    rw [Finset.sum_range_one]
  | n + 1, h => by
    have hN : cfg0.N = 82 := N_0
    have hB : ¬(⟨n + 1, h⟩ : Fin cfg0.N).val % 82 = 0 := by dsimp only; omega
    have e := congrFun ((outsAt0_B m c ⟨n + 1, h⟩ hB).trans (Pieces.out_later ..)) (ix2 (0 : Fin 1) (0 : Fin 1))
    refine e.trans ((Payload.accumulate_apply _ _).trans ?_)
    rw [tile_eq m c ⟨n + 1, h⟩]
    show outsAt0 m c n _ (ix2 (0 : Fin 1) (0 : Fin 1)) + tile m c (n + 1) = _
    rw [cell_after c n]
    unfold partialSum
    rw [Finset.sum_range_succ _ (n + 1)]

/-! ## The result array and the scalar the host makes of it -/

/-- The last grid point. -/
abbrev lastPt : Fin cfg0.N := ⟨81, by rw [show cfg0.N = 82 from N_0]; decide⟩

/-- The one-cell result array: the accumulator after the last point. -/
abbrev result (c : Dev nD) : Buf (Elt Ideal) ((c : Thread nD τ).loc main_v2) := outsAt0 m c 81 lastPt.isLt

/-- The one write-back, after the last point, writes the accumulator: the block is the whole one-cell array. -/
theorem flushed_eq (c : Dev nD) (t : Fin cfg0.N) (hf : (cfg0.win 3).flush t = true) :
    (dats m 0 c).flushed 3 t = ((cfg0.win 3).blk t).view.read (Elt Ideal) (result m c) := by
  have hN : cfg0.N = 82 := N_0
  have h81 : t.val = 81 := by have := (flush0_3 t).mp hf; have := t.isLt; omega
  obtain rfl : t = lastPt := Fin.ext h81
  show (cfg0.win 3).cut (grid0.coords lastPt) ((dats m 0 c).after 3 lastPt) = _
  rw [after0_3]
  have hz' : (fun a => win0_3.index lastPt a * main_v2.ty.shape.size a) = fun _ => 0 :=
    funext fun a => by fin_cases a <;> decide +kernel
  exact (Memref.read_access_unit_zero (Elt Ideal) main_v2 hz' (fun a => by rw [congrFun hz' a]; simp) (result m c)).symm

/-- The last point's block of the one-cell array starts at the origin and has extent one on each axis. -/
theorem last_block : ∀ a : Fin 2,
    win0_3.index lastPt a * win0_3.size a = 0 ∧ win0_3.xsize (grid0.coords lastPt) a = 1 := by
  decide +kernel

/-- So the result array ends holding the accumulator after the last point: its one cell lies in that block. -/
theorem final_cell (c : Dev nD) : (dats m 0 c).arrAt 3 cfg0.N = result m c :=
  (dats m 0 c).arrAt_eq_of_cover 3 (result m c) (flushed_eq m c) fun i =>
    ⟨lastPt, (flush0_3 lastPt).mpr rfl, by
      show i ∈ ((View.whole main_v2).slice (win0_3.rect lastPt)).set
      rw [View.set_slice_whole, Rect.mem_set_unit]
      intro a
      show win0_3.index lastPt a * win0_3.size a ≤ (i a : ℕ)
        ∧ (i a : ℕ) < win0_3.index lastPt a * win0_3.size a + win0_3.xsize (grid0.coords lastPt) a
      rw [(last_block a).1, (last_block a).2]
      exact ⟨Nat.zero_le _, by
        have hs : S1x1.size a = 1 := by fin_cases a <;> rfl
        have hi : (i a : ℕ) < S1x1.size a := (i a).isLt
        omega⟩⟩

/-- The host's reshape after the launch makes the scalar result of the one-cell array. -/
theorem tail_eq (c : Dev nD) :
    Pipeline.afterTail₀ cfgs (dats m) 0 (V0 m) [hostOps1] c main_v3 = shapeCast S_ (result m c) shapeCasts_S1x1_S_ := by
  unfold Pipeline.afterTail₀
  show StableHlo.after hostOps1 _ (Proc.devRef .tc main_v3) = _
  after_results
  funext i
  show shapeCast S_ (Pipeline.withArrays (cfgs 0).spec c (V0 m c) (fun w => (dats m 0 c).arrAt w (cfgs 0).N)
      (Proc.tc.devRef main_v2)) shapeCasts_S1x1_S_ i = _
  exact congrFun (congrArg (fun v => shapeCast S_ v shapeCasts_S1x1_S_)
    ((Pipeline.withArrays_arr spec0 launch0.win.arr_inj c _ _ 3).trans (final_cell m c))) i

/-- The run, read: the scalar result is the reshaped accumulator, and the arguments end unchanged. -/
theorem run : θ_run defs (onTc (τ := τ) (main (F := Ideal))) ⟨m, fun _ => 0, ρ⟩ fun r => ∀ c : Dev nD,
      r.2.mem ((c.tc : Thread nD τ).loc main_v3) = shapeCast S_ (result m c) shapeCasts_S1x1_S_
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c)))⟩)
    (run_main m ρ)

/-! ## The value -/

/-- The scalar result is the specification's total of the inputs' entries. -/
theorem result_apply (c : Dev nD) (i : S_.Idx) :
    shapeCast S_ (result m c) shapeCasts_S1x1_S_ i = Cert.Focal.total 1000000 40 (entries m c) := by
  rw [shapeCast_apply (result m c) shapeCasts_S1x1_S_ i (ix2 (0 : Fin 1) (0 : Fin 1)) (by
    have hlt := (S_.rowMajor i).isLt
    have h1 : S_.numel = 1 := by decide
    have h2 : (S1x1.rowMajor (ix2 (0 : Fin 1) (0 : Fin 1))).val = 0 := by
      rw [Shape.rowMajor_val_two]; rfl
    show (S1x1.rowMajor (ix2 (0 : Fin 1) (0 : Fin 1))).val = _
    omega)]
  show outsAt0 m c 81 _ (ix2 (0 : Fin 1) (0 : Fin 1)) = _
  rw [cell_after m c 81 _]
  unfold partialSum
  rw [← Fin.sum_univ_eq_sum_range (fun n => tile m c n) 82]
  unfold tile
  rw [Cert.LibTiledSum.sum_tiles_masked 82 12288 1000000 (by norm_num) (sample m c)]
  unfold Cert.Focal.total
  refine Finset.sum_congr rfl fun b _ => ?_
  unfold sample
  rw [dif_pos b.isLt]

end Cert.KernelIdeal.Value

end
-- ==== Proof.lean ====
/-
  The weighted focal binary-cross-entropy loss: a tiled kernel against the plain reference.

  Both programs compute, on the extended reals, the sum over 1 000 000 samples of the mean over 40 attributes of
      w[a] · (1 − x[b,a])² · −( t·log p + (1 − t)·log(1 − p) ),   p = clip(x[b,a], ε, 1),  t = label[a,b].
  The reference spells the square as a power with exponent two; for a finite x (the precondition) the power is the
  product.  The reference divides a row's sum by forty; the kernel multiplies by the named constant one fortieth: one
  function on every extended real.  The kernel pads the inputs to 82 tiles of 12288 samples, masks the padded rows to
  zero and accumulates the tiles' sums in one cell over the grid; addition on the extended reals commutes and
  associates, so the tiles' masked sums add up to the sum over the samples.
  The three frames are the generated frame runs and the reference's generated run; the ideal pass's one rewrite, the
  named constant, is its rule's statement.
-/
import proofs.«101112_j15968688407054_1_alg».proof.Defs
import proofs.«101112_j15968688407054_1_alg».proof.Proof.Gen.Kernel
import proofs.«101112_j15968688407054_1_alg».proof.Proof.Gen.Kernel.Skeleton
import proofs.«101112_j15968688407054_1_alg».proof.Proof.Gen.Kernel.Launch
import proofs.«101112_j15968688407054_1_alg».proof.Proof.Gen.Kernel.Points
import proofs.«101112_j15968688407054_1_alg».proof.Proof.Gen.Kernel.Frame
import proofs.«101112_j15968688407054_1_alg».proof.Proof.Gen.KernelIdeal
import proofs.«101112_j15968688407054_1_alg».proof.Proof.Gen.KernelIdeal.Skeleton
import proofs.«101112_j15968688407054_1_alg».proof.Proof.Gen.KernelIdeal.Launch
import proofs.«101112_j15968688407054_1_alg».proof.Proof.Gen.KernelIdeal.Points
import proofs.«101112_j15968688407054_1_alg».proof.Proof.Gen.KernelIdeal.Frame
import proofs.«101112_j15968688407054_1_alg».proof.Proof.Gen.ReferenceIdeal
import proofs.«101112_j15968688407054_1_alg».proof.Proof.Gen.Pre_finite_inputs
import proofs.«101112_j15968688407054_1_alg».proof.Proof.Gen.ReferenceIdeal.Run
import proofs.«101112_j15968688407054_1_alg».proof.Proof.Gen.ReferenceIdeal.Read
import proofs.«101112_j15968688407054_1_alg».proof.Proof.FocalFinite
import proofs.«101112_j15968688407054_1_alg».proof.Proof.FocalRef
import proofs.«101112_j15968688407054_1_alg».proof.Proof.FocalKernel
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- The one ledger entry: the table gives the name one fortieth, and the printed constant is that value. -/
theorem preserves : Cert.preserves_Kernel_KernelIdeal :=
  IdealRules.named_const.statement Cert.KernelIdeal.κ "inv_40" .f32 0x3CCCCCCD#32 ((1 / 40 : ℝ) : EReal) rfl

/-- Both results are the specification's total of the same entries: the kernel's by the accumulation over the
    tiles, the reference's operation by operation, the probabilities finite by the precondition. -/
theorem algebraic : Cert.algebraic_KernelIdeal_ReferenceIdeal := by
  intro m ρ m' ρ' hpre hagree
  refine ⟨fun c => shapeCast Cert.KernelIdeal.S_ (Cert.KernelIdeal.Value.result m c) Cert.KernelIdeal.Gen.shapeCasts_S1x1_S_,
    Cert.KernelIdeal.Value.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v23_eq, (hagree c).1, (hagree c).2.1, (hagree c).2.2]
  funext i
  exact (Cert.Focal.Ref.result_eq _ _ _ (fun j => Cert.Focal.finite_of_pre _ _ _ (hpre c) j) i).trans
    (Cert.KernelIdeal.Value.result_apply m c i).symm

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
